-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 18
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S8192x4096, .f32⟩
  | .hbm, ⟨15, _⟩ => ⟨S8192x4096, .bf16⟩
  | .hbm, ⟨16, _⟩ => ⟨S8192x4096, .f32⟩
  | .hbm, ⟨17, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S8192x4096_S4x2048x4096 : S8192x4096.ShapeCasts S4x2048x4096
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v11) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point of the matmul kernel leaves behind, as values.

  The grid is 8 × 4 × 2: the last coordinate `k` walks the two halves of the contraction axis, and consecutive points
  2n, 2n + 1 share the output block (i, j). The body keeps a running block `acc` in a scratch buffer:
    * at an even point (k = 0) it stores the zero block, reads it back, and stores `0 + A·B` of its two input blocks;
    * at an odd point (k = 1) it reads what the even point before it left, stores `acc + A·B`, and copies that to the
      output block, which is then written back.
  So after an odd point t the output block is `(0 + A(t-1)·B(t-1)) + A(t)·B(t)`: the payload of the accumulating store
  applied twice, first to the zero block. Nothing here depends on the float instance.
-/
import proofs.«162057_j57492432224589_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- An even point leaves in the scratch the accumulating store's payload over the zero block it has just stored and
    read back. -/
theorem sout_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S2048x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz,
    View.ld_unit_zero (S := S2048x1024) hz]

/-- An odd point leaves in the scratch the accumulating store's payload over what the scratch held. -/
theorem sout_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S2048x1024 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread,
    View.ld_unit_zero (S := S1024x2048) hz, View.ld_unit_zero (S := S2048x1024) hz, View.ld_unit_zero (S := S1024x1024) hz]

/-- And it leaves the same block in the output's staging buffer: the scratch read back after the store. -/
theorem out_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S2048x1024 .bf16) (xs0 : Vec F S1024x1024 .f32) :
    out0_B_2 c i arg3 harg3 arg4 harg4 arg5 harg5 arg6 harg6 hc0 hc1 x0 x1 xs0 = k0_pay2 xs0 x0 x1 := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero hz, View.readCov_unit_zero (S := S1024x1024) _ hz]
  simp only [View.readAt_eq_ld, harg3.read_unread, harg4.read_unread, harg6.read_unread,
    View.ld_unit_zero (S := S1024x2048) hz, View.ld_unit_zero (S := S2048x1024) hz, View.ld_unit_zero (S := S1024x1024) hz]

variable (m : (ℓ : Loc nD τ sig) → Buf (Elt F) ℓ)

/-- The block of the flattened activations the body reads at point `t`. -/
abbrev ablk (c : Dev nD) (t : Fin cfg0.N) : Vec F S1024x2048 .bf16 := iblk m c 0 t
/-- The block of the transposed weight the body reads at point `t`. -/
abbrev bblk (c : Dev nD) (t : Fin cfg0.N) : Vec F S2048x1024 .bf16 := iblk m c 1 t

/-- The point before `t` in the grid's order. -/
abbrev prev (t : Fin cfg0.N) : Fin cfg0.N := ⟨t.val - 1, Nat.lt_of_le_of_lt (Nat.sub_le _ _) t.isLt⟩

/-- After an odd point the output block is the accumulating payload applied twice: to the zero block with the
    blocks of the even point before it, then with this point's blocks. -/
theorem outs_odd (c : Dev nD) (t : Fin cfg0.N) (h1 : t.val % 2 = 1) :
    (outsAt0 m c t.val t.isLt).1
      = k0_pay2 (k0_pay2 (k0_pay1 (F := F)) (ablk m c (prev t)) (bblk m c (prev t))) (ablk m c t) (bblk m c t) := by
  have h0 : ¬t.val % 2 = 0 := by omega
  have h0' : (prev t).val % 2 = 0 := by show (t.val - 1) % 2 = 0; omega
  have h1' : ¬(prev t).val % 2 = 1 := by show ¬(t.val - 1) % 2 = 1; omega
  rw [outsAt0_B m c t h0 h1]
  dsimp only
  refine (out_B c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans ?_
  refine congrArg (fun acc : Vec F S1024x1024 .f32 => k0_pay2 acc (ablk m c t) (bblk m c t)) ?_
  show (outsAt0 m c (prev t).val (prev t).isLt).2 = _
  rw [outsAt0_A m c (prev t) h0' h1']
  dsimp only
  exact sout_A c (grid0.coords (prev t)) (ms0_0 (prev t)) (hs0_0 (prev t)) (ms0_1 (prev t)) (hs0_1 (prev t)) (ms0_2 (prev t)) (hs0_2 (prev t)) scM0_0 (Memref.isWhole_whole _) ((hcond0_0 (prev t)).mpr h0') (fun h => h1' ((hcond0_1 (prev t)).mp h))
    (iblk m c 0 (prev t)) (iblk m c 1 (prev t))

end Cert.KernelIdeal.Acc

end
-- ==== Proof.Payload.lean ====
/-
  The body's arithmetic read at one element, over the extended reals.

  The accumulating store's payload is `acc + A·B`, where the product is the matrix unit's contraction into a zero
  accumulator. At element (p, q) of the 1024 × 1024 block that is
      acc[p, q] + ∑_{k < 2048} A[p, k] · B[k, q],
  the contraction index of the dot's dimension numbers (left axis 1 against right axis 0) re-indexed by its one
  coordinate. The zero block is 0 at every element.
-/
import proofs.«162057_j57492432224589_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The left operand's row is the output's row; -/
theorem lhs_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
/-- its column is the contraction position; -/
theorem lhs_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
/-- the right operand's row is the contraction position; -/
theorem rhs_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
/-- and its column is the output's column. -/
theorem rhs_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The product of two blocks into a zero accumulator, at element (p, q): the sum over the 2048 contraction
    positions of `A[p, k] · B[k, q]`. -/
theorem product_apply (a : FVec Ideal S1024x2048 .bf16) (b : FVec Ideal S2048x1024 .bf16) (p q : Fin 1024) :
    matmul (F := Ideal) dot_S1024x2048_S2048x1024_S1024x1024_1_0_0_1_n_n none a b (constant S1024x1024 .f32 0x00000000#32) (ix2 p q)
      = ∑ k : Fin 2048, a (ix2 p k) * b (ix2 k q) := by
  simp only [matmul]
  rw [Ideal.matmul_constant_zero_apply, ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun a => Fin.ext (by
    match a with
    | ⟨0, _⟩ => exact lhs_0 _ _
    | ⟨1, _⟩ => exact (lhs_1 _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun a => Fin.ext (by
    match a with
    | ⟨0, _⟩ => exact (rhs_0 _ _).trans hk
    | ⟨1, _⟩ => exact rhs_1 _ _)
  rw [el, er]

/-- The zero block is zero at every element. -/
theorem pay1_apply (j : S1024x1024.Idx) : k0_pay1 (F := Ideal) j = 0 := by
  unfold k0_pay1
  simp only [shapeCast_self]
  exact Ideal.ofBits_zero_f32

/-- The accumulating payload at element (p, q): what the accumulator held there plus the half-contraction. -/
theorem pay2_apply (acc : Vec Ideal S1024x1024 .f32) (a : Vec Ideal S1024x2048 .bf16) (b : Vec Ideal S2048x1024 .bf16)
    (p q : Fin 1024) :
    k0_pay2 (F := Ideal) acc a b (ix2 p q) = acc (ix2 p q) + ∑ k : Fin 2048, a (ix2 p k) * b (ix2 k q) := by
  unfold k0_pay2
  simp only [shapeCast_self]
  exact congrArg (acc (ix2 p q) + ·) (product_apply a b p q)

end Cert.KernelIdeal.Payload

end
-- ==== Proof.Spec.lean ====
/-
  The mathematics both programs compute, stated without either program.

  With `x` of shape [4, 2048, 4096] and a weight matrix `wb` of shape [4096, 4096] (rows are output features,
  columns input features), the linear layer is
      out[b, s, o] = ∑ₖ x[b, s, k] · wb[o, k]           (k ranges over the 4096 input features).
  The kernel sees `x` flattened to rows r = 2048·b + s and the weight transposed, and adds the contraction up in two
  halves of 2048 terms, starting from zero:
      (0 + ∑_{k < 2048} X[r, k] · Wt[k, o]) + ∑_{k < 2048} X[r, 2048 + k] · Wt[2048 + k, o].
  Over the extended reals addition is commutative and associative with neutral element 0 (an `AddCommMonoid`), so
  the two halves are the whole sum: no finiteness of the inputs is needed.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.BitLinear

open Idealize.ShloMosaic Idealize.ShloMosaic.ValueIdx

/-- Position `k` of the first half of the contraction axis. -/
abbrev lo (k : Fin 2048) : Fin 4096 := ⟨k.val, by omega⟩
/-- Position `k` of the second half of the contraction axis. -/
abbrev hi (k : Fin 2048) : Fin 4096 := ⟨2048 + k.val, by omega⟩

/-- A sum over the 4096 contraction positions is the sum over its first half plus the sum over its second half, and
    starting the first half from zero changes nothing. -/
theorem sum_halves {M : Type*} [AddCommMonoid M] (f : Fin 4096 → M) :
    (0 + ∑ k : Fin 2048, f (lo k)) + ∑ k : Fin 2048, f (hi k) = ∑ k : Fin 4096, f k := by
  rw [zero_add]
  exact (Fin.sum_univ_add (a := 2048) (b := 2048) f).symm

/-- The matrix product of the flattened activations `X` [8192, 4096] with the transposed weight `Wt` [4096, 4096]:
    entry (r, o) is the sum over the 4096 contraction positions of `X[r, k] · Wt[k, o]`. -/
def matProd (X : (⟨2, ![8192, 4096]⟩ : Shape).Idx → EReal) (Wt : (⟨2, ![4096, 4096]⟩ : Shape).Idx → EReal) :
    (⟨2, ![8192, 4096]⟩ : Shape).Idx → EReal :=
  fun j => ∑ k : Fin 4096, X (ix2 (j 0) k) * Wt (ix2 k (j 1))

/-- The linear layer itself: entry (b, s, o) is the sum over the input features of `x[b, s, k] · wb[o, k]`. -/
def linear (x : (⟨3, ![4, 2048, 4096]⟩ : Shape).Idx → EReal) (wb : (⟨2, ![4096, 4096]⟩ : Shape).Idx → EReal) :
    (⟨3, ![4, 2048, 4096]⟩ : Shape).Idx → EReal :=
  fun i => ∑ k : Fin 4096, x (ix3 (i 0) (i 1) k) * wb (ix2 (i 2) k)

end Cert.BitLinear

end
-- ==== Proof.KernelValue.lean ====
/-
  The array the kernel region leaves: the matrix product of the two arrays it reads.

  Point t = 8i + 2j + k of the grid reads block (i, k) of the flattened activations X [8192, 4096] (1024 rows, 2048
  columns) and block (k, j) of the transposed weight Wt [4096, 4096] (2048 rows, 1024 columns), and the odd points
  (k = 1) write block (i, j) of the output back. By the accumulation, element (p, q) of that block is
      (0 + ∑_{k < 2048} X[1024 i + p, k] · Wt[k, 1024 j + q]) + ∑_{k < 2048} X[1024 i + p, 2048 + k] · Wt[2048 + k, 1024 j + q],
  the two halves of the contraction, which is entry (1024 i + p, 1024 j + q) of the product X · Wt. The 32 output
  blocks tile the [8192, 4096] array, so after the run the array is the product.
-/
import proofs.«162057_j57492432224589_1_alg».proof.Proof.Pieces
import proofs.«162057_j57492432224589_1_alg».proof.Proof.Payload
import proofs.«162057_j57492432224589_1_alg».proof.Proof.Spec

noncomputable section

open scoped BigOperators

open Idealize.ShloMosaic Idealize.ShloMosaic.TcCoe Idealize.SL.Sem
open Idealize.ShloMosaic.Pipeline (Dat)

namespace Cert.KernelIdeal.MatValue

open Cert.KernelIdeal Cert.KernelIdeal.Gen Cert.KernelIdeal.Acc Cert.KernelIdeal.Payload Cert.BitLinear
open Idealize.ShloMosaic.ValueIdx

variable (m : (ℓ : Loc nD τ sig) → Buf (Elt Ideal) ℓ)

/-- The flattened activations as the region finds them. -/
abbrev X (c : Dev nD) : Vec Ideal S8192x4096 .bf16 := V m c main_v11
/-- The transposed weight as the region finds it. -/
abbrev Wt (c : Dev nD) : Vec Ideal S4096x4096 .bf16 := V m c main_v9

/-- Their product, as contents of the region's output array. -/
abbrev product (c : Dev nD) : Buf (Elt Ideal) ((c : Thread nD τ).loc main_v12) := matProd (X m c) (Wt m c)

/-- The index maps at an odd point `t` and at the even point before it, decided over the grid: both points read
    the activations' block row and the weight's block column of the output block; the even point reads the first
    half of the contraction axis, the odd point the second. -/
theorem idx_facts : ∀ t : Fin cfg0.N, t.val % 2 = 1 →
    win0_0.index t (0 : Fin 2) = win0_2.index t (0 : Fin 2) ∧ win0_0.index t (1 : Fin 2) = 1
    ∧ win0_1.index t (0 : Fin 2) = 1 ∧ win0_1.index t (1 : Fin 2) = win0_2.index t (1 : Fin 2)
    ∧ win0_0.index (prev t) (0 : Fin 2) = win0_2.index t (0 : Fin 2) ∧ win0_0.index (prev t) (1 : Fin 2) = 0
    ∧ win0_1.index (prev t) (0 : Fin 2) = 0 ∧ win0_1.index (prev t) (1 : Fin 2) = win0_2.index t (1 : Fin 2)
    ∧ win0_2.index t (0 : Fin 2) ≤ 7 ∧ win0_2.index t (1 : Fin 2) ≤ 3 :=
  (by decide +kernel : ∀ t : Fin grid0.N, _)

/-- Every output block is some odd point's. -/
theorem idx_onto : ∀ (q0 : Fin 8) (q1 : Fin 4), ∃ t : Fin cfg0.N, t.val % 2 = 1 ∧ win0_2.index t = ![q0.val, q1.val] :=
  (by decide +kernel : ∀ (q0 : Fin 8) (q1 : Fin 4), ∃ t : Fin grid0.N, t.val % 2 = 1 ∧ win0_2.index t = ![q0.val, q1.val])

/-- An element of the activations' block at point `t` is the array's element at the block's offset. -/
theorem ablk_apply (c : Dev nD) (t : Fin cfg0.N) (p : Fin 1024) (k : Fin 2048) (r : Fin 8192) (kk : Fin 4096)
    (hr : win0_0.index t (0 : Fin 2) * 1024 + p.val = r.val) (hk : win0_0.index t (1 : Fin 2) * 2048 + k.val = kk.val) :
    ablk m c t (ix2 p k) = X m c (ix2 r kk) := by
  show iblk m c 0 t (ix2 p k) = _
  unfold iblk
  rw [View.read_apply]
  show V m c main_v11 (((cfg0.win 0).blk t).view.emb (ix2 p k)) = V m c main_v11 (ix2 r kk)
  refine congrArg (V m c main_v11) (funext fun a => Fin.ext ?_)
  match a with
  | ⟨0, _⟩ => show win0_0.index t (0 : Fin 2) * 1024 + 1 * p.val = r.val; omega
  | ⟨1, _⟩ => show win0_0.index t (1 : Fin 2) * 2048 + 1 * k.val = kk.val; omega

/-- An element of the weight's block at point `t` is the array's element at the block's offset. -/
theorem bblk_apply (c : Dev nD) (t : Fin cfg0.N) (k : Fin 2048) (q : Fin 1024) (kk : Fin 4096) (o : Fin 4096)
    (hk : win0_1.index t (0 : Fin 2) * 2048 + k.val = kk.val) (ho : win0_1.index t (1 : Fin 2) * 1024 + q.val = o.val) :
    bblk m c t (ix2 k q) = Wt m c (ix2 kk o) := by
  show iblk m c 1 t (ix2 k q) = _
  unfold iblk
  rw [View.read_apply]
  show V m c main_v9 (((cfg0.win 1).blk t).view.emb (ix2 k q)) = V m c main_v9 (ix2 kk o)
  refine congrArg (V m c main_v9) (funext fun a => Fin.ext ?_)
  match a with
  | ⟨0, _⟩ => show win0_1.index t (0 : Fin 2) * 2048 + 1 * k.val = kk.val; omega
  | ⟨1, _⟩ => show win0_1.index t (1 : Fin 2) * 1024 + 1 * q.val = o.val; omega

/-- What an odd point writes back is its block of the product. -/
theorem flushed_eq (c : Dev nD) (t : Fin cfg0.N) (hf : (cfg0.win 2).flush t = true) :
    (dats m 0 c).flushed 2 t = ((cfg0.win 2).blk t).view.read (Elt Ideal) (product m c) := by
  have h1 : t.val % 2 = 1 := (flush0_2 t).mp hf
  show (cfg0.win 2).cut (grid0.coords t) ((dats m 0 c).after 2 t) = _
  rw [after0_2, outs_odd m c t h1]
  obtain ⟨e0, e1, e2, e3, e4, e5, e6, e7, b0, b1⟩ := idx_facts t h1
  funext j
  obtain ⟨p, q, rfl⟩ : ∃ (p q : Fin 1024), j = ix2 p q := ⟨j 0, j 1, eq_ix2 j⟩
  have hr : win0_2.index t (0 : Fin 2) * 1024 + p.val < 8192 := by have := p.isLt; omega
  have ho : win0_2.index t (1 : Fin 2) * 1024 + q.val < 4096 := by have := q.isLt; omega
  have hemb : ((cfg0.win 2).blk t).view.emb (ix2 p q)
      = ix2 (⟨win0_2.index t (0 : Fin 2) * 1024 + p.val, hr⟩ : Fin 8192) (⟨win0_2.index t (1 : Fin 2) * 1024 + q.val, ho⟩ : Fin 4096) :=
    funext fun a => Fin.ext (by
      match a with
      | ⟨0, _⟩ => show win0_2.index t (0 : Fin 2) * 1024 + 1 * p.val = win0_2.index t (0 : Fin 2) * 1024 + p.val; omega
      | ⟨1, _⟩ => show win0_2.index t (1 : Fin 2) * 1024 + 1 * q.val = win0_2.index t (1 : Fin 2) * 1024 + q.val; omega)
  show k0_pay2 (F := Ideal) (k0_pay2 (k0_pay1 (F := Ideal)) (ablk m c (prev t)) (bblk m c (prev t))) (ablk m c t) (bblk m c t) (ix2 p q)
    = product m c (((cfg0.win 2).blk t).view.emb (ix2 p q))
  rw [hemb, pay2_apply, pay2_apply, pay1_apply]
  show _ = ∑ kk : Fin 4096, X m c (ix2 (⟨win0_2.index t (0 : Fin 2) * 1024 + p.val, hr⟩ : Fin 8192) kk)
    * Wt m c (ix2 kk (⟨win0_2.index t (1 : Fin 2) * 1024 + q.val, ho⟩ : Fin 4096))
  rw [← sum_halves]
  refine congrArg₂ (· + ·) (congrArg (0 + ·) (Finset.sum_congr rfl fun k _ => ?_)) (Finset.sum_congr rfl fun k _ => ?_)
  · rw [ablk_apply m c (prev t) p k ⟨_, hr⟩ (lo k) (by show _ = win0_2.index t (0 : Fin 2) * 1024 + p.val; omega) (by show _ = k.val; omega),
      bblk_apply m c (prev t) k q (lo k) ⟨_, ho⟩ (by show _ = k.val; omega) (by show _ = win0_2.index t (1 : Fin 2) * 1024 + q.val; omega)]
  · rw [ablk_apply m c t p k ⟨_, hr⟩ (hi k) (by show _ = win0_2.index t (0 : Fin 2) * 1024 + p.val; omega) (by show _ = 2048 + k.val; omega),
      bblk_apply m c t k q (hi k) ⟨_, ho⟩ (by show _ = 2048 + k.val; omega) (by show _ = win0_2.index t (1 : Fin 2) * 1024 + q.val; omega)]

/-- An index of the output array is in point `t`'s block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v12).slice (win0_2.rect t)).set ↔ _
  rw [View.set_slice_whole, Rect.mem_set_unit]
  exact Iff.rfl

/-- Every index of the output array is in the block some odd point writes back: the point of its block row and
    block column. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, h1, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, (flush0_2 t).mpr h1, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the run the output array holds the product. -/
theorem final (c : Dev nD) : (dats m 0 c).arrAt 2 cfg0.N = product m c :=
  (dats m 0 c).arrAt_eq_of_cover 2 (product m c) (flushed_eq m c) (cover)

end Cert.KernelIdeal.MatValue

end
-- ==== Proof.HostArrays.lean ====
/-
  The two arrays the kernel region reads, as the host operations before it leave them.

  The activations `x` [4, 2048, 4096] are flattened to [8192, 4096] (row 2048·b + s) and their format changed; the
  weight `w` [4096, 4096] is binarized — each entry's sign times the mean absolute value of its row —, transposed, and
  its format changed. Over the extended reals a change of format is the identity, so
      X[2048·b + s, k] = x[b, s, k]        and        Wt[k, o] = wb[o, k].
-/
import proofs.«162057_j57492432224589_1_alg».proof.Proof.Gen.KernelIdeal.Frame.Runs
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem

namespace Cert.KernelIdeal.HostSide

open Cert.KernelIdeal Cert.KernelIdeal.Gen Idealize.ShloMosaic.ValueIdx

section AnyInstance

variable {F : FTy → Type} [FloatOps F]
variable (m : (ℓ : Loc nD τ sig) → Buf (Elt F) ℓ)

/-- The binarized weight: the sign of each entry times its row's mean absolute value (the row's sum of absolute
    values, from zero, divided by 4096). -/
def wbin (w : FVec F S4096x4096 .f32) : FVec F S4096x4096 .f32 :=
  mulf (Host.sign w)
    (broadcastInDim S4096x4096 ![0, 1] bcast_S4096x1_S4096x4096_0_1
      (Host.divf
        (broadcastInDim S4096x1 ![0] bcast_S4096_S4096x1_0
          (Host.reduceAdd (Host.absf w) (constant S_ .f32 0x00000000#32) reducesTo_S4096x4096_S4096_d1 h_S_))
        (broadcastInDim S4096x1 ![] bcast_S_S4096x1 (constant S_ .f32 0x45800000#32))))

/-- The region's first operand is the flattened activations, format changed. -/
theorem V_v11 (c : Dev nD) : (V m c main_v11 : (⟨S8192x4096, .bf16⟩ : BufTy).Contents (Elt F))
    = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v11) = _
  after_results
  rfl

/-- The region's second operand is the binarized weight transposed, format changed. -/
theorem V_v9 (c : Dev nD) : (V m c main_v9 : (⟨S4096x4096, .bf16⟩ : BufTy).Contents (Elt F))
    = truncf .bf16 (transpose S4096x4096 [1, 0] (wbin (m ((c : Thread nD τ).loc main_arg1))) transposes_S4096x4096_S4096x4096_1_0) bitsLt_bf16_f32 := by
  show StableHlo.after hostOps0 (fun b => m (c, b)) (Proc.devRef .tc main_v9) = _
  after_results
  rfl

end AnyInstance

variable (m : (ℓ : Loc nD τ sig) → Buf (Elt Ideal) ℓ)

/-- Row 2048·b + s of the flattened activations is row (b, s) of `x`. -/
theorem X_apply (c : Dev nD) (b : Fin 4) (s : Fin 2048) (k : Fin 4096) (r : Fin 8192) (hr : r.val = 2048 * b.val + s.val) :
    (V m c main_v11 : (⟨S8192x4096, .bf16⟩ : BufTy).Contents (Elt Ideal)) (ix2 r k) = m ((c : Thread nD τ).loc main_arg0) (ix3 b s k) := by
  rw [V_v11]
  show shapeCast S8192x4096 (m ((c : Thread nD τ).loc main_arg0)) shapeCasts_S4x2048x4096_S8192x4096 (ix2 r k) = _
  refine shapeCast_apply _ _ _ _ ?_
  have e3 : (S4x2048x4096.rowMajor (ix3 b s k)).val = (b.val * 2048 + s.val) * 4096 + k.val :=
    Shape.rowMajor_val_three (d := ![4, 2048, 4096]) (ix3 b s k)
  have e2 : (S8192x4096.rowMajor (ix2 r k)).val = r.val * 4096 + k.val :=
    Shape.rowMajor_val_two (d := ![8192, 4096]) (ix2 r k)
  show (S4x2048x4096.rowMajor (ix3 b s k)).val = (S8192x4096.rowMajor (ix2 r k)).val
  rw [e3, e2, hr]
  ring

/-- Entry (k, o) of the transposed weight is entry (o, k) of the binarized weight. -/
theorem Wt_apply (c : Dev nD) (k o : Fin 4096) :
    ((V m c main_v9 : (⟨S4096x4096, .bf16⟩ : BufTy).Contents (Elt Ideal)) (ix2 k o) : EReal)
      = wbin (F := Ideal) (m ((c : Thread nD τ).loc main_arg1)) (ix2 o k) := by
  rw [V_v9]
  show transpose S4096x4096 [1, 0] (wbin (F := Ideal) (m ((c : Thread nD τ).loc main_arg1))) transposes_S4096x4096_S4096x4096_1_0 (ix2 k o) = _
  refine transpose_apply _ _ _ _ _ (fun b => ?_)
  match b with
  | ⟨0, _⟩ => rfl
  | ⟨1, _⟩ => rfl

end Cert.KernelIdeal.HostSide

end
-- ==== Proof.KernelRun.lean ====
/-
  The kernel program's run, read: its result is the linear layer of the specification.

  After the region the output array [8192, 4096] holds the product X · Wt; the one host operation after it reshapes
  that to [4, 2048, 4096], entry (b, s, o) reading row 2048·b + s, column o. With X[2048·b + s, k] = x[b, s, k] and
  Wt[k, o] = wb[o, k] that entry is ∑ₖ x[b, s, k] · wb[o, k].
-/
import proofs.«162057_j57492432224589_1_alg».proof.Proof.KernelValue
import proofs.«162057_j57492432224589_1_alg».proof.Proof.HostArrays

noncomputable section

open scoped BigOperators

open Idealize.ShloMosaic Idealize.ShloMosaic.TcCoe Idealize.SL.Sem
open Idealize.ShloMosaic.Pipeline (Dat)

namespace Cert.KernelIdeal.MatValue

open Cert.KernelIdeal Cert.KernelIdeal.Gen Cert.KernelIdeal.HostSide Cert.BitLinear
open Idealize.ShloMosaic.ValueIdx

variable (m : (ℓ : Loc nD τ sig) → Buf (Elt Ideal) ℓ) (ρ : Dev nD → PrngReg)

/-- The activations the program is launched with. -/
abbrev xarr (c : Dev nD) : FVec Ideal S4x2048x4096 .f32 := m ((c : Thread nD τ).loc main_arg0)
/-- The weight the program is launched with. -/
abbrev warr (c : Dev nD) : FVec Ideal S4096x4096 .f32 := m ((c : Thread nD τ).loc main_arg1)

/-- The program's result: the linear layer of the activations and the binarized weight. -/
abbrev result (c : Dev nD) : Buf (Elt Ideal) ((c : Thread nD τ).loc main_v13) :=
  linear (xarr m c) (wbin (warr m c))

/-- The product reshaped to [4, 2048, 4096] is the linear layer. -/
theorem reshape_product (c : Dev nD) :
    shapeCast S4x2048x4096 (product m c) shapeCasts_S8192x4096_S4x2048x4096 = result m c := by
  funext i
  obtain ⟨b, s, o, rfl⟩ : ∃ (b : Fin 4) (s : Fin 2048) (o : Fin 4096), i = ix3 b s o := ⟨i 0, i 1, i 2, eq_ix3 i⟩
  have hr : 2048 * b.val + s.val < 8192 := by have := b.isLt; have := s.isLt; omega
  refine (shapeCast_apply (product m c) shapeCasts_S8192x4096_S4x2048x4096 (ix3 b s o) (ix2 (⟨2048 * b.val + s.val, hr⟩ : Fin 8192) o) ?_).trans ?_
  · have e3 : (S4x2048x4096.rowMajor (ix3 b s o)).val = (b.val * 2048 + s.val) * 4096 + o.val :=
      Shape.rowMajor_val_three (d := ![4, 2048, 4096]) (ix3 b s o)
    have e2 : (S8192x4096.rowMajor (ix2 (⟨2048 * b.val + s.val, hr⟩ : Fin 8192) o)).val = (2048 * b.val + s.val) * 4096 + o.val :=
      Shape.rowMajor_val_two (d := ![8192, 4096]) (ix2 (⟨2048 * b.val + s.val, hr⟩ : Fin 8192) o)
    show (S8192x4096.rowMajor (ix2 (⟨2048 * b.val + s.val, hr⟩ : Fin 8192) o)).val = (S4x2048x4096.rowMajor (ix3 b s o)).val
    rw [e3, e2]
    ring
  · show matProd (X m c) (Wt m c) (ix2 (⟨2048 * b.val + s.val, hr⟩ : Fin 8192) o) = linear (xarr m c) (wbin (warr m c)) (ix3 b s o)
    unfold matProd linear
    refine Finset.sum_congr rfl fun k _ => ?_
    exact congrArg₂ (fun u v : EReal => u * v) (X_apply m c b s k ⟨_, hr⟩ rfl) (Wt_apply m c k o)

/-- The host operation after the region leaves the result at the linear layer. -/
theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = product m c :=
    (Pipeline.withArrays_arr spec0 launch0.win.arr_inj c _ _ 2).trans (final m c)
  rw [hw]
  exact reshape_product m c

/-- The run, read: every weakly fair execution of the program ends with its result at the linear layer and its
    arguments as launched. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v13 (Pipeline.mem_restRefs_of main_v13 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.MatValue

end
-- ==== Proof.RefValue.lean ====
/-
  The reference's result read at an index.

  The reference contracts axis 2 of `x` [4, 2048, 4096] with axis 1 of the binarized weight [4096, 4096]: its entry
  (b, s, o) is the sum over the 4096 input features k of `x[b, s, k] · wb[o, k]` — the linear layer of the
  specification, with `wb` the reference's own binarized weight.
-/
import proofs.«162057_j57492432224589_1_alg».proof.Proof.Gen.ReferenceIdeal.Read
import proofs.«162057_j57492432224589_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's contraction is the specification's linear layer over the reference's binarized weight. -/
theorem result_eq (x0 : (⟨S4x2048x4096, .f32⟩ : BufTy).Contents (Elt Ideal)) (x1 : (⟨S4096x4096, .f32⟩ : BufTy).Contents (Elt Ideal)) :
    val_main_v8 (F := Ideal) x0 x1 = Cert.BitLinear.linear x0 (val_main_v7 (F := Ideal) x1) := by
  funext i
  rw [val_main_v8_apply]
  unfold Cert.BitLinear.linear
  refine Finset.sum_congr rfl fun k _ => ?_
  have el : lidx_main_v8 i k = ix3 (i 0) (i 1) k := funext fun a => Fin.ext (by
    match a with
    | ⟨0, _⟩ => rfl
    | ⟨1, _⟩ => rfl
    | ⟨2, _⟩ => rfl)
  have er : ridx_main_v8 i k = ix2 (i 2) k := funext fun a => Fin.ext (by
    match a with
    | ⟨0, _⟩ => rfl
    | ⟨1, _⟩ => rfl)
  rw [el, er]
  rfl

end Cert.ReferenceIdeal.RefValue

end
-- ==== Proof.lean ====
/-
  A binarized linear layer: the tiled matrix-unit kernel against the one-contraction reference.

  Both programs binarize the weight `w` [4096, 4096] the same way — entry (o, k) becomes the sign of `w[o, k]` times
  the mean absolute value of row o — and both then compute, for activations `x` [4, 2048, 4096],
      out[b, s, o] = ∑ₖ x[b, s, k] · wb[o, k]        (k over the 4096 input features).
  The reference does it in one contraction. The kernel flattens `x` to [8192, 4096], transposes `wb`, and walks an
  8 × 4 × 2 grid of 1024 × 1024 output blocks, adding the contraction up in two halves of 2048 terms in a scratch
  block that starts at zero, and writes the block back after the second half. Over the extended reals the changes of
  float format are the identity, and `(0 + first half) + second half` is the whole sum because addition there is a
  commutative monoid: the two results agree at every entry, for all inputs (finiteness of the inputs is not used).

  The kernel's frames and the reference's run are generated modules; what is proved in this directory's own modules
  is what the kernel's grid leaves in its output array (Pieces, Payload, KernelValue), what the host operations
  around the region do to it (HostArrays, KernelRun), that the reference's contraction is the same sum (RefValue),
  and, below, that the two binarized weights are one term.
-/
import proofs.«162057_j57492432224589_1_alg».proof.Defs
import proofs.«162057_j57492432224589_1_alg».proof.Proof.Gen.Kernel
import proofs.«162057_j57492432224589_1_alg».proof.Proof.Gen.Kernel.Skeleton
import proofs.«162057_j57492432224589_1_alg».proof.Proof.Gen.Kernel.Launch
import proofs.«162057_j57492432224589_1_alg».proof.Proof.Gen.Kernel.Points
import proofs.«162057_j57492432224589_1_alg».proof.Proof.Gen.Kernel.Frame
import proofs.«162057_j57492432224589_1_alg».proof.Proof.Gen.KernelIdeal
import proofs.«162057_j57492432224589_1_alg».proof.Proof.Gen.KernelIdeal.Skeleton
import proofs.«162057_j57492432224589_1_alg».proof.Proof.Gen.KernelIdeal.Launch
import proofs.«162057_j57492432224589_1_alg».proof.Proof.Gen.KernelIdeal.Points
import proofs.«162057_j57492432224589_1_alg».proof.Proof.Gen.KernelIdeal.Frame
import proofs.«162057_j57492432224589_1_alg».proof.Proof.Gen.ReferenceIdeal
import proofs.«162057_j57492432224589_1_alg».proof.Proof.Gen.ReferenceIdeal.Run
import proofs.«162057_j57492432224589_1_alg».proof.Proof.Gen.ReferenceIdeal.Read
import proofs.«162057_j57492432224589_1_alg».proof.Proof.Gen.Pre_finite_inputs
import proofs.«162057_j57492432224589_1_alg».proof.Proof.KernelRun
import proofs.«162057_j57492432224589_1_alg».proof.Proof.RefValue
import Idealize.ShloMosaic.Adequacy
import Idealize.ShloMosaic.Init

noncomputable section

namespace Cert.Proof

open Idealize.ShloMosaic Idealize.SL.Sem

/-- The kernel's binarized weight and the reference's are the same operations of the same weight: one term. -/
theorem wbin_eq (w : FVec Ideal Cert.KernelIdeal.S4096x4096 .f32) :
    Cert.ReferenceIdeal.Read.val_main_v7 (F := Ideal) w = Cert.KernelIdeal.HostSide.wbin (F := Ideal) w := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the linear layer of the activations and the binarized weight: the kernel by its two-half
    accumulation over the grid, the reference by its one contraction, from arguments that agree. -/
theorem algebraic : Cert.algebraic_KernelIdeal_ReferenceIdeal := by
  intro m ρ m' ρ' _ hagree
  refine ⟨fun c => Cert.KernelIdeal.MatValue.result m c, Cert.KernelIdeal.MatValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2, wbin_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
